-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x1x100 : Shape := ⟨4, ![4096, 64, 1, 100]⟩
abbrev S100x100 : Shape := ⟨2, ![100, 100]⟩
abbrev S100 : Shape := ⟨1, ![100]⟩
abbrev S_ : Shape := ⟨0, ![]⟩

class Facts : Prop where
  bcast_S_S4096x64x1x100 : S_.BroadcastsInDim S4096x64x1x100 (![] : Fin 0 → Fin S4096x64x1x100.rank)
  reducesTo_S4096x64x1x100_S_d0_1_2_3 : S4096x64x1x100.ReducesTo [0, 1, 2, 3] S_
  h_S_ : 0 < S_.numel
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  main_v18

def fn {F : FTy → Type} [FloatOps F] (main_arg0 : FVec F S4096x64x1x100 .f32) (main_arg1 : FVec F S100x100 .f32) (main_arg2 : FVec F S100 .f32) (main_arg3 : FVec F S100x100 .f32) : IVec S_ 1 :=
  let main_v0 : FVec F S4096x64x1x100 .f32 := Host.absf main_arg0
  let main_cst : FVec F S_ .f32 := constant S_ .f32 0x7F800000#32
  let main_v1 : FVec F S4096x64x1x100 .f32 := broadcastInDim S4096x64x1x100 ![] bcast_S_S4096x64x1x100 main_cst
  let main_v2 : IVec S4096x64x1x100 1 := cmpf .olt main_v0 main_v1
  let main_c : IVec S_ 1 := constantI S_ 1 1#1
  let main_v3 : IVec S_ 1 := (fun x v => Host.reduce IntOp.andi x v reducesTo_S4096x64x1x100_S_d0_1_2_3 h_S_) main_v2 main_c
  let main_v4 : FVec F S100x100 .f32 := Host.absf main_arg1
  let main_cst_0 : FVec F S_ .f32 := constant S_ .f32 0x7F800000#32
  let main_v5 : FVec F S100x100 .f32 := broadcastInDim S100x100 ![] bcast_S_S100x100 main_cst_0
  let main_v6 : IVec S100x100 1 := cmpf .olt main_v4 main_v5
  let main_c_1 : IVec S_ 1 := constantI S_ 1 1#1
  let main_v7 : IVec S_ 1 := (fun x v => Host.reduce IntOp.andi x v reducesTo_S100x100_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x100 .f32 := Host.absf main_arg3
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_v13 main_v16
-- ==== Kernel.lean ====
abbrev S4096x64x1x100 : Shape := ⟨4, ![4096, 64, 1, 100]⟩
abbrev S100x100 : Shape := ⟨2, ![100, 100]⟩
abbrev S100 : Shape := ⟨1, ![100]⟩
abbrev S262144x100 : Shape := ⟨2, ![262144, 100]⟩
abbrev S1x100 : Shape := ⟨2, ![1, 100]⟩
abbrev S8192x100 : Shape := ⟨2, ![8192, 100]⟩

abbrev nBuf : Space → Nat
  | .hbm => 11
  | .vmem => 6
  | .smem => 0
  | _ => 0

abbrev bufTy : (tb : Table) → Fin (tcTables nBuf tb) → BufTy
  | .hbm, ⟨0, _⟩ => ⟨S4096x64x1x100, .f32⟩
  | .hbm, ⟨1, _⟩ => ⟨S100x100, .f32⟩
  | .hbm, ⟨2, _⟩ => ⟨S100, .f32⟩
  | .hbm, ⟨3, _⟩ => ⟨S100x100, .f32⟩
  | .hbm, ⟨4, _⟩ => ⟨S262144x100, .f32⟩
  | .hbm, ⟨5, _⟩ => ⟨S100x100, .f32⟩
  | .hbm, ⟨6, _⟩ => ⟨S100x100, .f32⟩
  | .hbm, ⟨7, _⟩ => ⟨S1x100, .f32⟩
  | .hbm, ⟨8, _⟩ => ⟨S1x100, .f32⟩
  | .hbm, ⟨9, _⟩ => ⟨S262144x100, .f32⟩
  | .hbm, ⟨10, _⟩ => ⟨S4096x64x1x100, .f32⟩
  | .local _ .vmem, ⟨0, _⟩ => ⟨S8192x100, .f32⟩
  | .local _ .vmem, ⟨1, _⟩ => ⟨S8192x100, .f32⟩
  | .local _ .vmem, ⟨2, _⟩ => ⟨S100x100, .f32⟩
  | .local _ .vmem, ⟨3, _⟩ => ⟨S1x100, .f32⟩
  | .local _ .vmem, ⟨4, _⟩ => ⟨S8192x100, .f32⟩
  | .local _ .vmem, ⟨5, _⟩ => ⟨S8192x100, .f32⟩
  | _, _ => ⟨S4096x64x1x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x64x1x100_S262144x100 : S4096x64x1x100.ShapeCasts S262144x100
  transposes_S100x100_S100x100_1_0 : S100x100.Transposes [1, 0] S100x100
  shapeCasts_S100_S1x100 : S100.ShapeCasts S1x100
  inb_S8192x100_S8192x100_0_0 : ∀ a, (![0, 0] : Fin 2 → Nat) a + S8192x100.size a ≤ S8192x100.size a
  h_S8192x100 : 0 < S8192x100.numel
  shapeCasts_S8192x100_S8192x100 : S8192x100.ShapeCasts S8192x100
  bitsLt_bf16_f32 : FTy.bits .bf16 < FTy.bits .f32
  inb_S100x100_S100x100_0_0 : ∀ a, (![0, 0] : Fin 2 → Nat) a + S100x100.size a ≤ S100x100.size a
  h_S100x100 : 0 < S100x100.numel
  shapeCasts_S100x100_S100x100 : S100x100.ShapeCasts S100x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S8192x100 : S1x100.Broadcasts S8192x100
  shapeCasts_S262144x100_S4096x64x1x100 : S262144x100.ShapeCasts S4096x64x1x100
  dot_S100x100_S100x100_S100x100_1_0_0_1_n_n_wf : DotDims.WF S100x100 S100x100 S100x100 [1] [0] [0] [1] [] []
  dot_S1x100_S100x100_S1x100_1_0_0_1_n_n_wf : DotDims.WF S1x100 S100x100 S1x100 [1] [0] [0] [1] [] []
  dot_S8192x100_S100x100_S8192x100_1_0_0_1_n_n_wf : DotDims.WF S8192x100 S100x100 S8192x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x100.size a ≤ S262144x100.size a
  hwx0_0 : ∀ i : grid0.Coords, EltTy.bits .f32 = 32 ∨ (Rect.block (s := S262144x100) S8192x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x100.size a ≤ S100x100.size a
  hwx0_1 : ∀ i : grid0.Coords, EltTy.bits .f32 = 32 ∨ (Rect.block (s := S100x100) S100x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x100.size a ≤ S262144x100.size a
  hwx0_3 : ∀ i : grid0.Coords, EltTy.bits .f32 = 32 ∨ (Rect.block (s := S262144x100) S8192x100.size (cc0_transform_3 i) (hinb0_3 i)).WholeWords (EltTy.packing .f32)

variable [Facts₀]

def dot_S100x100_S100x100_S100x100_1_0_0_1_n_n : DotDims S100x100 S100x100 S100x100 where
  lhsContracting := [1]
  rhsContracting := [0]
  lhsNonContracting := [0]
  rhsNonContracting := [1]
  lhsBatch := []
  rhsBatch := []
  wf := dot_S100x100_S100x100_S100x100_1_0_0_1_n_n_wf
def dot_S1x100_S100x100_S1x100_1_0_0_1_n_n : DotDims S1x100 S100x100 S1x100 where
  lhsContracting := [1]
  rhsContracting := [0]
  lhsNonContracting := [0]
  rhsNonContracting := [1]
  lhsBatch := []
  rhsBatch := []
  wf := dot_S1x100_S100x100_S1x100_1_0_0_1_n_n_wf
def dot_S8192x100_S100x100_S8192x100_1_0_0_1_n_n : DotDims S8192x100 S100x100 S8192x100 where
  lhsContracting := [1]
  rhsContracting := [0]
  lhsNonContracting := [0]
  rhsNonContracting := [1]
  lhsBatch := []
  rhsBatch := []
  wf := dot_S8192x100_S100x100_S8192x100_1_0_0_1_n_n_wf

abbrev win0_0 : Pipeline.Window sig grid0 :=
  Pipeline.Window.ofSpec (Memref.whole main_v0) S8192x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S100x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8192x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x64x1x100 : Shape := ⟨4, ![4096, 64, 1, 100]⟩
abbrev S100x100 : Shape := ⟨2, ![100, 100]⟩
abbrev S100 : Shape := ⟨1, ![100]⟩
abbrev S1x1x1x100 : Shape := ⟨4, ![1, 1, 1, 100]⟩

abbrev nBuf : Space → Nat
  | .hbm => 9
  | .vmem => 0
  | .smem => 0
  | _ => 0

abbrev bufTy : (tb : Table) → Fin (tcTables nBuf tb) → BufTy
  | .hbm, ⟨0, _⟩ => ⟨S4096x64x1x100, .f32⟩
  | .hbm, ⟨1, _⟩ => ⟨S100x100, .f32⟩
  | .hbm, ⟨2, _⟩ => ⟨S100, .f32⟩
  | .hbm, ⟨3, _⟩ => ⟨S100x100, .f32⟩
  | .hbm, ⟨4, _⟩ => ⟨S4096x64x1x100, .f32⟩
  | .hbm, ⟨5, _⟩ => ⟨S1x1x1x100, .f32⟩
  | .hbm, ⟨6, _⟩ => ⟨S4096x64x1x100, .f32⟩
  | .hbm, ⟨7, _⟩ => ⟨S4096x64x1x100, .f32⟩
  | .hbm, ⟨8, _⟩ => ⟨S4096x64x1x100, .f32⟩
  | _, _ => ⟨S4096x64x1x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S100_S1x1x1x100_3 : S100.BroadcastsInDim S1x1x1x100 (![3] : Fin 1 → Fin S1x1x1x100.rank)
  bcast_S1x1x1x100_S4096x64x1x100_0_1_2_3 : S1x1x1x100.BroadcastsInDim S4096x64x1x100 (![0, 1, 2, 3] : Fin 4 → Fin S4096x64x1x100.rank)
  dot_S4096x64x1x100_S100x100_S4096x64x1x100_3_1_012_0_n_n_wf : DotDims.WF S4096x64x1x100 S100x100 S4096x64x1x100 [3] [1] [0, 1, 2] [0] [] []
  dot_S4096x64x1x100_S100x100_S4096x64x1x100_3_0_012_1_n_n_wf : DotDims.WF S4096x64x1x100 S100x100 S4096x64x1x100 [3] [0] [0, 1, 2] [1] [] []

variable [Facts₀]

def dot_S4096x64x1x100_S100x100_S4096x64x1x100_3_1_012_0_n_n : DotDims S4096x64x1x100 S100x100 S4096x64x1x100 where
  lhsContracting := [3]
  rhsContracting := [1]
  lhsNonContracting := [0, 1, 2]
  rhsNonContracting := [0]
  lhsBatch := []
  rhsBatch := []
  wf := dot_S4096x64x1x100_S100x100_S4096x64x1x100_3_1_012_0_n_n_wf
def dot_S4096x64x1x100_S100x100_S4096x64x1x100_3_0_012_1_n_n : DotDims S4096x64x1x100 S100x100 S4096x64x1x100 where
  lhsContracting := [3]
  rhsContracting := [0]
  lhsNonContracting := [0, 1, 2]
  rhsNonContracting := [1]
  lhsBatch := []
  rhsBatch := []
  wf := dot_S4096x64x1x100_S100x100_S4096x64x1x100_3_0_012_1_n_n_wf

class Facts : Prop extends Facts₀ where

variable [Facts]
-- ==== Proof.TwoLayerLaw.lean ====
/-
  The algebra that joins the two programs, stated without either of them.

  For one output entry, with `x` a row of the input, `W` the first layer's weight (indexed output-then-input),
  `b` its bias and `S` one column of the second matrix, the folded form
      Σ_d x_d · (Σ_k W_{k,d} · S_k)  +  Σ_k b_k · S_k
  and the two-layer form
      Σ_k (Σ_d x_d · W_{k,d} + b_k) · S_k
  are equal whenever every entry is a real number.  On the extended reals the step from one to the other moves a
  factor across a sum, which fails at the infinities; so the entries are assumed real, the sums are carried to ℝ,
  and the identity is proved there by distributing, splitting the sum and swapping the order of summation.
-/
import Idealize.ShloMosaic.PureOps.Ideal
import Idealize.ShloMosaic.Lib.ValueIdx

noncomputable section

open scoped BigOperators

namespace Cert.TwoLayer

open Idealize.ShloMosaic Idealize.ShloMosaic.ValueIdx

/-! ## The result, as one function of the four inputs -/

abbrev SX : Shape := ⟨4, ![4096, 64, 1, 100]⟩
abbrev SM : Shape := ⟨2, ![100, 100]⟩
abbrev SV : Shape := ⟨1, ![100]⟩

/-- The two-layer map, entry by entry: at (l, s, o, e) the row x[l, s, o, ·] goes through the first layer,
    Σ_d x_d · W[k, d] + b[k] for each k, and the result is contracted with column e of the second matrix. -/
def twoLayer (x : SX.Idx → EReal) (W : SM.Idx → EReal) (b : SV.Idx → EReal) (S : SM.Idx → EReal) : SX.Idx → EReal :=
  fun i => ∑ k : Fin 100, ((∑ d : Fin 100, x (ix4 (i 0) (i 1) (i 2) d) * W (ix2 k d)) + b (ix1 k)) * S (ix2 k (i 3))

/-- The folded form of the same map: the two matrices multiplied first, M[d, e] = Σ_k W[k, d] · S[k, e], the bias
    carried through the second matrix, c[e] = Σ_k b[k] · S[k, e], and then one product with the rows of x. -/
def folded (x : SX.Idx → EReal) (W : SM.Idx → EReal) (b : SV.Idx → EReal) (S : SM.Idx → EReal) : SX.Idx → EReal :=
  fun i => (∑ d : Fin 100, x (ix4 (i 0) (i 1) (i 2) d) * ∑ k : Fin 100, W (ix2 k d) * S (ix2 k (i 3)))
    + ∑ k : Fin 100, b (ix1 k) * S (ix2 k (i 3))

/-! ## The law -/

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over ℝ: distribute `S_k` over the inner sum and the bias, split, and swap the two sums. -/
theorem fold_real {K D : ℕ} (x : Fin D → ℝ) (W : Fin K → Fin D → ℝ) (b S : Fin K → ℝ) :
    (∑ d, x d * ∑ k, W k d * S k) + ∑ k, b k * S k = ∑ k, (∑ d, x d * W k d + b k) * S k := by
  simp only [Finset.mul_sum, add_mul, Finset.sum_add_distrib, Finset.sum_mul]
  rw [Finset.sum_comm]
  congr 1
  refine Finset.sum_congr rfl fun k _ => Finset.sum_congr rfl fun d _ => ?_
  ring

/-- The same identity on the extended reals, for entries that are all real. -/
theorem fold_ereal {K D : ℕ} (x : Fin D → EReal) (W : Fin K → Fin D → EReal) (b S : Fin K → EReal)
    (hx : ∀ d, ∃ r : ℝ, x d = r) (hW : ∀ k d, ∃ r : ℝ, W k d = r) (hb : ∀ k, ∃ r : ℝ, b k = r)
    (hS : ∀ k, ∃ r : ℝ, S k = r) :
    (∑ d, x d * ∑ k, W k d * S k) + ∑ k, b k * S k = ∑ k, (∑ d, x d * W k d + b k) * S k := by
  choose xr hx using hx
  choose Wr hW using hW
  choose br hb using hb
  choose Sr hS using hS
  simp only [hx, hW, hb, hS, ← EReal.coe_mul, ← coe_sum, ← EReal.coe_add]
  exact congrArg _ (fold_real xr Wr br Sr)

/-- The folded form is the two-layer map when every entry of every input is real. -/
theorem folded_eq_twoLayer (x : SX.Idx → EReal) (W : SM.Idx → EReal) (b : SV.Idx → EReal) (S : SM.Idx → EReal)
    (hx : ∀ i, ∃ r : ℝ, x i = r) (hW : ∀ i, ∃ r : ℝ, W i = r) (hb : ∀ i, ∃ r : ℝ, b i = r) (hS : ∀ i, ∃ r : ℝ, S i = r) :
    folded x W b S = twoLayer x W b S := by
  funext i
  exact fold_ereal (fun d => x (ix4 (i 0) (i 1) (i 2) d)) (fun k d => W (ix2 k d)) (fun k => b (ix1 k))
    (fun k => S (ix2 k (i 3))) (fun d => hx _) (fun k d => hW _) (fun k => hb _) (fun k => hS _)

end Cert.TwoLayer

end
-- ==== Proof.FiniteInputs.lean ====
/-
  From the precondition to real entries.

  The precondition says, array by array, that every entry's absolute value is strictly below +∞, and joins the
  four statements by "and".  On the extended reals |x| = max x (-x), and max x (-x) < +∞ rules out both
  infinities: at x = +∞ the maximum is +∞, and at x = -∞ it is -(-∞) = +∞ again.  So every entry of every
  input is (the coercion of) a real number, which is what the algebraic law between the two programs needs.
-/
import proofs.«123369_j19963007991948_1_alg».proof.Pre_finite_inputs
import Idealize.ShloMosaic.Lib.ReduceAll
import Idealize.ShloMosaic.Lib.ValueIdx
import Idealize.ShloMosaic.PureOps.Ideal.Laws

noncomputable section

namespace Cert.TwoLayer

open Idealize.ShloMosaic

/-- An extended real whose absolute value max x (-x) compares strictly below the pattern of +∞ is a real number. -/
theorem real_of_abs_lt_top (x : EReal) (h : Ideal.cmp .olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Cert.Pre_finite_inputs.Facts]

open Cert.Pre_finite_inputs

/-- The scalar shape has one index. -/
instance : Subsingleton S_.Idx := ⟨fun a b => funext fun d => d.elim0⟩

/-- If the precondition evaluates to "true", every entry of each of the four inputs is a real number: the
    conjunction is split, each "all" gives the comparison at every index, and the comparison gives a real. -/
theorem real_of_pre (a0 : FVec Ideal S4096x64x1x100 .f32) (a1 : FVec Ideal S100x100 .f32) (a2 : FVec Ideal S100 .f32)
    (a3 : FVec Ideal S100x100 .f32) (h : Cert.Pre_finite_inputs.fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨hh0, h1⟩ := IntOp.andi_eq_one.1 h01
  refine ⟨fun i => ?_, fun i => ?_, fun i => ?_, fun i => ?_⟩
  · exact real_of_abs_lt_top _ (Host.reduce_andi_all _ _ _ _ _ hh0 i)
  · exact real_of_abs_lt_top _ (Host.reduce_andi_all _ _ _ _ _ h1 i)
  · exact real_of_abs_lt_top _ (Host.reduce_andi_all _ _ _ _ _ h2 i)
  · exact real_of_abs_lt_top _ (Host.reduce_andi_all _ _ _ _ _ h3 i)

end Cert.TwoLayer

end
-- ==== Proof.RefValue.lean ====
/-
  The reference, read entry by entry.

  The reference contracts x with W on their last axes, adds the bias along the last axis, and contracts the result
  with the first axis of the second matrix.  Read at an index (l, s, o, e) this is, literally,
      Σ_k (Σ_d x[l, s, o, d] · W[k, d] + b[k]) · S[k, e],
  the two-layer map of the specification: no algebra is needed on this side, only the names of the indices.
-/
import proofs.«123369_j19963007991948_1_alg».proof.Proof.Gen.ReferenceIdeal.Read
import proofs.«123369_j19963007991948_1_alg».proof.Proof.TwoLayerLaw

noncomputable section

namespace Cert.ReferenceIdeal.RefValue

open Cert.ReferenceIdeal Cert.ReferenceIdeal.Gen Cert.ReferenceIdeal.Read
open Idealize.ShloMosaic Idealize.ShloMosaic.ValueIdx Cert.TwoLayer

/-- The reference's last stage is the two-layer map of its four arguments. -/
theorem ref_eq_twoLayer (x0 : (⟨S4096x64x1x100, .f32⟩ : BufTy).Contents (Elt Ideal))
    (x1 : (⟨S100x100, .f32⟩ : BufTy).Contents (Elt Ideal)) (x2 : (⟨S100, .f32⟩ : BufTy).Contents (Elt Ideal))
    (x3 : (⟨S100x100, .f32⟩ : BufTy).Contents (Elt Ideal)) :
    val_main_v4 (F := Ideal) x0 x1 x2 x3 = twoLayer x0 x1 x2 x3 := by
  funext i
  rw [val_main_v4_apply]
  unfold twoLayer
  refine Finset.sum_congr rfl fun k _ => ?_
  rw [val_main_v3_apply, val_main_v0_apply, val_main_v2_apply, val_main_v1_apply]
  -- the first contraction reads row (l, s, o) of x and row k of W
  have e1 : ∀ d : Fin 100, lidx_main_v0 (lidx_main_v4 i k) d = ix4 (i 0) (i 1) (i 2) d := fun d => funext fun a => by
    match a with
    | ⟨0, _⟩ => rfl
    | ⟨1, _⟩ => rfl
    | ⟨2, _⟩ => rfl
    | ⟨3, _⟩ => rfl
  have e2 : ∀ d : Fin 100, ridx_main_v0 (lidx_main_v4 i k) d = ix2 k d := fun d => funext fun a => by
    match a with
    | ⟨0, _⟩ => rfl
    | ⟨1, _⟩ => rfl
  -- the bias is read at k
  have e3 : idx_main_v1 (idx_main_v2 (lidx_main_v4 i k)) = ix1 k := funext fun a => by
    match a with
    | ⟨0, _⟩ => rfl
  -- the second contraction reads entry (k, e) of the second matrix
  have e4 : ridx_main_v4 i k = ix2 k (i 3) := funext fun a => by
    match a with
    | ⟨0, _⟩ => rfl
    | ⟨1, _⟩ => rfl
  simp only [e1, e2, e3, e4]
  rfl

end Cert.ReferenceIdeal.RefValue

end
-- ==== Proof.KernelPayload.lean ====
/-
  The kernel body's one stored value, entry by entry.

  The body loads a block of 8192 rows of x, the 100×100 matrix M and the 1×100 row c, multiplies the block by M on the
  matrix unit into a zero accumulator and adds c to every row.  Narrowing the operands to a shorter float format is the
  identity on extended reals, and the product into a zero accumulator is the plain sum over the contracted coordinate;
  so at (p, q) the stored value is  Σ_d x[p, d] · M[d, q] + c[0, q].
-/
import proofs.«123369_j19963007991948_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx

/-! ## The operand indices of the block's matrix product, axis by axis -/

theorem lhs_axis0 (i : S8192x100.Idx) (q : dot_S8192x100_S100x100_S8192x100_1_0_0_1_n_n.contr.Idx) : (dot_S8192x100_S100x100_S8192x100_1_0_0_1_n_n.lhsIdx i q 0).val = (i 0).val := by
  unfold DotDims.lhsIdx
  rw [dif_neg (show ¬(0 : Fin S8192x100.rank) ∈ dot_S8192x100_S100x100_S8192x100_1_0_0_1_n_n.lhsBatch by decide), dif_pos (show (0 : Fin S8192x100.rank) ∈ dot_S8192x100_S100x100_S8192x100_1_0_0_1_n_n.lhsNonContracting by decide)]
  rfl
theorem lhs_axis1 (i : S8192x100.Idx) (q : dot_S8192x100_S100x100_S8192x100_1_0_0_1_n_n.contr.Idx) : (dot_S8192x100_S100x100_S8192x100_1_0_0_1_n_n.lhsIdx i q 1).val = (q ⟨0, by decide⟩).val :=
  dot_S8192x100_S100x100_S8192x100_1_0_0_1_n_n.lhsIdx_val_of_single rfl i q
theorem rhs_axis0 (i : S8192x100.Idx) (q : dot_S8192x100_S100x100_S8192x100_1_0_0_1_n_n.contr.Idx) : (dot_S8192x100_S100x100_S8192x100_1_0_0_1_n_n.rhsIdx i q 0).val = (q ⟨0, by decide⟩).val :=
  dot_S8192x100_S100x100_S8192x100_1_0_0_1_n_n.rhsIdx_val_of_single rfl i q
theorem rhs_axis1 (i : S8192x100.Idx) (q : dot_S8192x100_S100x100_S8192x100_1_0_0_1_n_n.contr.Idx) : (dot_S8192x100_S100x100_S8192x100_1_0_0_1_n_n.rhsIdx i q 1).val = (i 1).val := by
  unfold DotDims.rhsIdx
  rw [dif_neg (show ¬(1 : Fin S100x100.rank) ∈ dot_S8192x100_S100x100_S8192x100_1_0_0_1_n_n.rhsBatch by decide), dif_pos (show (1 : Fin S100x100.rank) ∈ dot_S8192x100_S100x100_S8192x100_1_0_0_1_n_n.rhsNonContracting by decide)]
  rfl

/-- The block's product into the zero accumulator, at (p, q): row p of the left operand against column q of the right. -/
theorem blockProduct_apply {φ₁ φ₂ : FTy} (A : FVec Ideal S8192x100 φ₁) (B : FVec Ideal S100x100 φ₂) (p : Fin 8192) (q : Fin 100) :
    matmul dot_S8192x100_S100x100_S8192x100_1_0_0_1_n_n none A B (constant S8192x100 .f32 0x00000000#32) (ix2 p q) = ∑ d : Fin 100, A (ix2 p d) * B (ix2 d q) := by
  refine (Ideal.matmul_constant_zero_apply dot_S8192x100_S100x100_S8192x100_1_0_0_1_n_n none A B (ix2 p q)).trans ?_
  rw [← Equiv.sum_comp (contrEquiv1 dot_S8192x100_S100x100_S8192x100_1_0_0_1_n_n 100 rfl rfl).symm]
  refine Finset.sum_congr rfl fun k _ => ?_
  have hk := contrEquiv1_symm_val dot_S8192x100_S100x100_S8192x100_1_0_0_1_n_n 100 rfl rfl k
  have el : dot_S8192x100_S100x100_S8192x100_1_0_0_1_n_n.lhsIdx (ix2 p q) ((contrEquiv1 dot_S8192x100_S100x100_S8192x100_1_0_0_1_n_n 100 rfl rfl).symm k) = ix2 p k := funext fun a => Fin.ext (by
    match a with
    | ⟨0, _⟩ => exact lhs_axis0 _ _
    | ⟨1, _⟩ => exact (lhs_axis1 _ _).trans hk)
  have er : dot_S8192x100_S100x100_S8192x100_1_0_0_1_n_n.rhsIdx (ix2 p q) ((contrEquiv1 dot_S8192x100_S100x100_S8192x100_1_0_0_1_n_n 100 rfl rfl).symm k) = ix2 k q := funext fun a => Fin.ext (by
    match a with
    | ⟨0, _⟩ => exact (rhs_axis0 _ _).trans hk
    | ⟨1, _⟩ => exact rhs_axis1 _ _)
  rw [el, er]

/-- The stored value at (p, q). -/
theorem pay_apply (x0 : Vec Ideal S8192x100 .f32) (x1 : Vec Ideal S100x100 .f32) (x2 : Vec Ideal S1x100 .f32)
    (p : Fin 8192) (q : Fin 100) :
    k0_pay1 x0 x1 x2 (ix2 p q) = (∑ d : Fin 100, x0 (ix2 p d) * x1 (ix2 d q)) + x2 (ix2 (0 : Fin 1) q) := by
  unfold k0_pay1
  show addf (matmul dot_S8192x100_S100x100_S8192x100_1_0_0_1_n_n none (truncf .bf16 (shapeCast S8192x100 x0 shapeCasts_S8192x100_S8192x100) bitsLt_bf16_f32)
      (truncf .bf16 (shapeCast S100x100 x1 shapeCasts_S100x100_S100x100) bitsLt_bf16_f32) (constant S8192x100 .f32 0x00000000#32))
    (broadcastTo S8192x100 (shapeCast S1x100 x2 shapeCasts_S1x100_S1x100 : FVec Ideal S1x100 .f32) broadcasts_S1x100_S8192x100) (ix2 p q) = _
  rw [addf_apply, blockProduct_apply, broadcastTo_1b_ab_apply]
  simp only [shapeCast_self, truncf_apply]

end Cert.KernelIdeal.Payload

end
-- ==== Proof.KernelHost.lean ====
/-
  The kernel program's host operations around its one region, entry by entry.

  Before the region the program flattens x to 262144 rows of 100, multiplies the transposed first-layer weight by the
  second matrix, M[d, e] = Σ_k W[k, d] · S[k, e], and carries the bias through the second matrix,
  c[0, e] = Σ_k b[k] · S[k, e].  The region computes, row by row, rows · M + c.  After it the rows are given their
  four coordinates back.  Row ((l·64 + s)·1 + o) of the flattened input is x[l, s, o, ·], so at (l, s, o, e) the
  program's result is the folded form of the two-layer map.
-/
import proofs.«123369_j19963007991948_1_alg».proof.Proof.Gen.KernelIdeal
import proofs.«123369_j19963007991948_1_alg».proof.Proof.TwoLayerLaw
import Idealize.ShloMosaic.Lib.StackMember
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx Cert.TwoLayer

/-- What the region leaves in its output array, as a function of its three input arrays: each row of `a` times the
    matrix `M`, plus the one row `cc`. -/
def affineRows (a : S262144x100.Idx → EReal) (M : S100x100.Idx → EReal) (cc : S1x100.Idx → EReal) :
    S262144x100.Idx → EReal :=
  fun j => (∑ d : Fin 100, a (ix2 (j 0) d) * M (ix2 d (j 1))) + cc (ix2 (0 : Fin 1) (j 1))

/-- The product of the transposed weight with the second matrix, at (d, e). -/
theorem foldedMatrix_apply (W S : FVec Ideal S100x100 .f32) (d e : Fin 100) :
    Host.dotGeneral dot_S100x100_S100x100_S100x100_1_0_0_1_n_n none
        (transpose S100x100 [1, 0] W transposes_S100x100_S100x100_1_0) S (ix2 d e)
      = ∑ k : Fin 100, W (ix2 k d) * S (ix2 k e) := by
  rw [show dot_S100x100_S100x100_S100x100_1_0_0_1_n_n = DotDims.plain 100 100 100 from rfl,
    StackMember.dotGeneral_plain_apply]
  refine Finset.sum_congr rfl fun k _ => ?_
  rw [transpose_ix2_apply]

/-- The bias, made a row, times the second matrix, at (0, e). -/
theorem foldedBias_apply (b : FVec Ideal S100 .f32) (S : FVec Ideal S100x100 .f32) (u : Fin 1) (e : Fin 100) :
    Host.dotGeneral dot_S1x100_S100x100_S1x100_1_0_0_1_n_n none
        (shapeCast S1x100 b shapeCasts_S100_S1x100 : FVec Ideal S1x100 .f32) S (ix2 u e)
      = ∑ k : Fin 100, b (ix1 k) * S (ix2 k e) := by
  rw [show dot_S1x100_S100x100_S1x100_1_0_0_1_n_n = DotDims.plain 1 100 100 from rfl,
    StackMember.dotGeneral_plain_apply]
  refine Finset.sum_congr rfl fun k _ => ?_
  rw [shapeCast_a_1a_apply]

/-- Row n of the flattened input, for n the row-major position of (l, s, o), is x[l, s, o, ·]. -/
theorem rows_apply (x : FVec Ideal S4096x64x1x100 .f32) (l : Fin 4096) (s : Fin 64) (o : Fin 1) (n : Fin 262144)
    (hn : n.val = (l.val * 64 + s.val) * 1 + o.val) (d : Fin 100) :
    shapeCast S262144x100 x shapeCasts_S4096x64x1x100_S262144x100 (ix2 n d) = x (ix4 l s o d) :=
  shapeCast_apply x shapeCasts_S4096x64x1x100_S262144x100 _ _ (by
    rw [Shape.rowMajor_val_four, Shape.rowMajor_val_two]
    show ((l.val * 64 + s.val) * 1 + o.val) * 100 + d.val = n.val * 100 + d.val
    rw [hn])

/-- The program's result at (l, s, o, e), from the four inputs: the folded form of the two-layer map. -/
theorem result_apply (x : FVec Ideal S4096x64x1x100 .f32) (W : FVec Ideal S100x100 .f32) (b : FVec Ideal S100 .f32)
    (S : FVec Ideal S100x100 .f32) (l : Fin 4096) (s : Fin 64) (o : Fin 1) (e : Fin 100) :
    shapeCast S4096x64x1x100
        (affineRows (shapeCast S262144x100 x shapeCasts_S4096x64x1x100_S262144x100)
          (Host.dotGeneral dot_S100x100_S100x100_S100x100_1_0_0_1_n_n none
            (transpose S100x100 [1, 0] W transposes_S100x100_S100x100_1_0) S)
          (Host.dotGeneral dot_S1x100_S100x100_S1x100_1_0_0_1_n_n none
            (shapeCast S1x100 b shapeCasts_S100_S1x100 : FVec Ideal S1x100 .f32) S))
        shapeCasts_S262144x100_S4096x64x1x100 (ix4 l s o e)
      = folded x W b S (ix4 l s o e) := by
  have hn : (l.val * 64 + s.val) * 1 + o.val < 262144 := by
    have := l.isLt; have := s.isLt; have := o.isLt; omega
  rw [shapeCast_apply _ shapeCasts_S262144x100_S4096x64x1x100 (ix4 l s o e) (ix2 (⟨_, hn⟩ : Fin 262144) e) (by
    rw [Shape.rowMajor_val_two, Shape.rowMajor_val_four]; rfl)]
  show (∑ d : Fin 100, shapeCast S262144x100 x shapeCasts_S4096x64x1x100_S262144x100 (ix2 (⟨_, hn⟩ : Fin 262144) d)
        * Host.dotGeneral dot_S100x100_S100x100_S100x100_1_0_0_1_n_n none
            (transpose S100x100 [1, 0] W transposes_S100x100_S100x100_1_0) S (ix2 d e))
      + Host.dotGeneral dot_S1x100_S100x100_S1x100_1_0_0_1_n_n none
          (shapeCast S1x100 b shapeCasts_S100_S1x100 : FVec Ideal S1x100 .f32) S (ix2 (0 : Fin 1) e)
    = (∑ d : Fin 100, x (ix4 l s o d) * ∑ k : Fin 100, W (ix2 k d) * S (ix2 k e))
      + ∑ k : Fin 100, b (ix1 k) * S (ix2 k e)
  rw [foldedBias_apply]
  congr 1
  refine Finset.sum_congr rfl fun d _ => ?_
  rw [rows_apply x l s o ⟨_, hn⟩ rfl d, foldedMatrix_apply]

end Cert.KernelIdeal.Hand

end
-- ==== Proof.KernelBlocks.lean ====
/-
  From the blocks the grid points write to the region's output array.

  The grid has 32 points; point t reads rows 8192·t … 8192·t + 8191 of the flattened input, the whole matrix M and
  the whole row c, and writes the same rows of the output.  A block's coordinate in the array is always
  (block index) × (block extent) + (coordinate inside the block); the matrix and the row sit at block index zero, so
  their blocks are the arrays themselves.  Hence what point t writes back is block t of ONE function of the three
  input arrays (rows · M + c), the 32 blocks cover every row, and the output array after the run is that function.
-/
import proofs.«123369_j19963007991948_1_alg».proof.Proof.Gen.KernelIdeal.Frame
import proofs.«123369_j19963007991948_1_alg».proof.Proof.KernelPayload
import proofs.«123369_j19963007991948_1_alg».proof.Proof.KernelHost
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The printed index maps over the 32 points: the input rows move with the output rows, block index t on the row
    axis; every other block index is zero. -/
theorem blockIndices : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 31 :=
  (by decide +kernel : ∀ t : Fin grid0.N, _)

/-- Every block of rows is some point's. -/
theorem blockOnto : ∀ q : Fin 32, ∃ t : Fin cfg0.N, win0_3.index t = ![q.val, 0] :=
  (by decide +kernel : ∀ q : Fin 32, ∃ t : Fin grid0.N, win0_3.index t = ![q.val, 0])

/-- The input block of rows at point t, at (p, d), is the flattened input at (P, d), where P is row p of block t. -/
theorem rowsBlock_apply (c : Dev nD) (t : Fin cfg0.N) (p : Fin 8192) (d : Fin 100) (P : Fin 262144)
    (hP : P.val = win0_3.index t (0 : Fin 2) * 8192 + p.val) :
    (iblk m c 0 t : Vec Ideal S8192x100 .f32) (ix2 p d) = (V m c main_v0 : S262144x100.Idx → EReal) (ix2 P d) := by
  obtain ⟨e0, e1, -, -, -, -, -, -⟩ := blockIndices t
  unfold iblk
  rw [View.read_apply]
  show V m c main_v0 _ = V m c main_v0 _
  congr 1
  funext a
  apply Fin.ext
  match a with
  | ⟨0, _⟩ => show win0_0.index t (0 : Fin 2) * 8192 + 1 * p.val = P.val; omega
  | ⟨1, _⟩ => show win0_0.index t (1 : Fin 2) * 100 + 1 * d.val = d.val; omega

/-- The matrix's block at any point is the whole matrix. -/
theorem matrixBlock_eq (c : Dev nD) (t : Fin cfg0.N) :
    (iblk m c 1 t : Vec Ideal S100x100 .f32) = (V m c main_v2 : S100x100.Idx → EReal) := by
  obtain ⟨-, -, -, e3, e4, -, -, -⟩ := blockIndices t
  funext y
  unfold iblk
  rw [View.read_apply]
  show V m c main_v2 _ = V m c main_v2 y
  congr 1
  funext a
  apply Fin.ext
  match a with
  | ⟨0, _⟩ => show win0_1.index t (0 : Fin 2) * 100 + 1 * (y 0).val = (y 0).val; omega
  | ⟨1, _⟩ => show win0_1.index t (1 : Fin 2) * 100 + 1 * (y 1).val = (y 1).val; omega

/-- The row's block at any point is the whole row. -/
theorem rowBlock_eq (c : Dev nD) (t : Fin cfg0.N) :
    (iblk m c 2 t : Vec Ideal S1x100 .f32) = (V m c main_v4 : S1x100.Idx → EReal) := by
  obtain ⟨-, -, -, -, -, e5, e6, -⟩ := blockIndices t
  funext y
  unfold iblk
  rw [View.read_apply]
  show V m c main_v4 _ = V m c main_v4 y
  congr 1
  funext a
  apply Fin.ext
  match a with
  | ⟨0, _⟩ => show win0_2.index t (0 : Fin 2) * 1 + 1 * (y 0).val = (y 0).val; omega
  | ⟨1, _⟩ => show win0_2.index t (1 : Fin 2) * 100 + 1 * (y 1).val = (y 1).val; omega

/-- One stored entry against the whole-array function: if the block of rows x0 holds rows r0, r0 + 1, … of the array
    `a`, the stored value at y is `affineRows a M cc` at the array index i in row r0 + y's row and y's column. -/
theorem storedEntry (x0 : Vec Ideal S8192x100 .f32) (x1 : Vec Ideal S100x100 .f32) (x2 : Vec Ideal S1x100 .f32)
    (a : S262144x100.Idx → EReal) (r0 : ℕ)
    (h0 : ∀ (p : Fin 8192) (d : Fin 100) (P : Fin 262144), P.val = r0 + p.val → x0 (ix2 p d) = a (ix2 P d))
    (y : S8192x100.Idx) (i : S262144x100.Idx) (hi0 : (i 0).val = r0 + (y 0).val) (hi1 : (i 1).val = (y 1).val) :
    k0_pay1 x0 x1 x2 y = affineRows a x1 x2 i := by
  obtain ⟨p, q, rfl⟩ : ∃ (p : Fin 8192) (q : Fin 100), y = ix2 p q := ⟨y 0, y 1, eq_ix2 y⟩
  obtain ⟨P, Q, rfl⟩ : ∃ (P : Fin 262144) (Q : Fin 100), i = ix2 P Q := ⟨i 0, i 1, eq_ix2 i⟩
  have hP : P.val = r0 + p.val := hi0
  obtain rfl : Q = q := Fin.ext hi1
  rw [Payload.pay_apply]
  show _ = (∑ d : Fin 100, a (ix2 P d) * x1 (ix2 d Q)) + x2 (ix2 (0 : Fin 1) Q)
  congr 1
  refine Finset.sum_congr rfl fun d _ => ?_
  rw [h0 p d P hP]

/-- WHAT POINT t WRITES BACK is block t of `affineRows` of the three arrays as the region finds them. -/
theorem flushed_eq (c : Dev nD) (t : Fin cfg0.N) :
    (dats m 0 c).flushed 3 t
      = ((cfg0.win 3).blk t).view.read (Elt Ideal) (affineRows (V m c main_v0) (V m c main_v2) (V m c main_v4)) := by
  show (cfg0.win 3).cut (grid0.coords t) ((dats m 0 c).after 3 t) = _
  rw [after0_3]
  unfold out0_3
  rw [View.canon_unit_zero zeroOffsets]
  simp only [View.ld_unit_zero (S := S8192x100) zeroOffsets, View.ld_unit_zero (S := S100x100) zeroOffsets,
    View.ld_unit_zero (S := S1x100) zeroOffsets]
  rw [matrixBlock_eq m c t, rowBlock_eq m c t]
  obtain ⟨e0, e1, e2, -, -, -, -, -⟩ := blockIndices t
  funext j
  refine storedEntry (iblk m c 0 t) (V m c main_v2) (V m c main_v4) (V m c main_v0) (win0_3.index t (0 : Fin 2) * 8192)
    (fun p d P hP => rowsBlock_apply m c t p d P hP) j (((cfg0.win 3).blk t).view.emb j) ?_ ?_
  · show win0_3.index t (0 : Fin 2) * 8192 + 1 * (j 0).val = win0_3.index t (0 : Fin 2) * 8192 + (j 0).val
    rw [Nat.one_mul]
  · show win0_3.index t (1 : Fin 2) * 100 + 1 * (j 1).val = (j 1).val
    rw [e2, Nat.zero_mul, Nat.zero_add, Nat.one_mul]

/-- An index of the output array is in point t's block iff each coordinate is in the block's range on its axis. -/
theorem mem_block (t : Fin cfg0.N) (i : S262144x100.Idx) :
    i ∈ ((cfg0.win 3).blk t).view.set ↔ ∀ a : Fin 2, win0_3.index t a * S8192x100.size a ≤ (i a).val
      ∧ (i a).val < win0_3.index t a * S8192x100.size a + S8192x100.size a := by
  show i ∈ ((View.whole main_v5).slice (win0_3.rect t)).set ↔ _
  rw [View.set_slice_whole, Rect.mem_set_unit]
  exact Iff.rfl

/-- Row r of the output is in the block of the point whose block index is r / 8192: the blocks cover the array. -/
theorem covered (i : S262144x100.Idx) :
    ∃ t : Fin cfg0.N, (cfg0.win 3).flush t = true ∧ i ∈ ((cfg0.win 3).blk t).view.set := by
  have hi0 : (i 0).val < 262144 := (i 0).isLt
  have hi1 : (i 1).val < 100 := (i 1).isLt
  obtain ⟨t, ht⟩ := blockOnto ⟨(i 0).val / 8192, by omega⟩
  have q0 : win0_3.index t (0 : Fin 2) = (i 0).val / 8192 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 8192 ≤ (i 0).val ∧ (i 0).val < win0_3.index t (0 : Fin 2) * 8192 + 8192
    omega
  | ⟨1, _⟩ =>
    show win0_3.index t (1 : Fin 2) * 100 ≤ (i 1).val ∧ (i 1).val < win0_3.index t (1 : Fin 2) * 100 + 100
    omega

/-- THE OUTPUT ARRAY after the run: rows · M + c, of the arrays as the region finds them. -/
theorem outputArray (c : Dev nD) :
    (dats m 0 c).arrAt 3 cfg0.N = affineRows (V m c main_v0) (V m c main_v2) (V m c main_v4) :=
  (dats m 0 c).arrAt_eq_of_cover 3 _ (fun t _ => flushed_eq m c t) covered

end Cert.KernelIdeal.Hand

end
-- ==== Proof.KernelRun.lean ====
/-
  The kernel program's run, with its result named.

  The generated frame run ends with the region's output array at what the grid points wrote and every other buffer at
  what the host operations after the region leave.  Here the three arrays the region reads are named as the host
  operations before it computed them, the output array is rows · M + c of those, and the one operation after the region
  gives the rows their four coordinates back.  So the program's result is the folded form of the two-layer map of the
  four inputs, and the inputs end unchanged.
-/
import proofs.«123369_j19963007991948_1_alg».proof.Proof.KernelBlocks
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.StableHlo Cert.TwoLayer

variable (m : (ℓ : Loc nD τ sig) → Buf (Elt Ideal) ℓ) (ρ : Dev nD → PrngReg)

/-- The four inputs on core c, at their literal shapes. -/
abbrev inX (c : Dev nD) : FVec Ideal S4096x64x1x100 .f32 := m ((c : Thread nD τ).loc main_arg0)
abbrev inW (c : Dev nD) : FVec Ideal S100x100 .f32 := m ((c : Thread nD τ).loc main_arg1)
abbrev inB (c : Dev nD) : FVec Ideal S100 .f32 := m ((c : Thread nD τ).loc main_arg2)
abbrev inS (c : Dev nD) : FVec Ideal S100x100 .f32 := m ((c : Thread nD τ).loc main_arg3)

/-- The region's first array is the input x flattened to rows. -/
theorem rowsArray_eq (c : Dev nD) :
    V m c main_v0 = shapeCast S262144x100 (inX m c) shapeCasts_S4096x64x1x100_S262144x100 := by
  show StableHlo.after hostOps0 (fun b => m (c, b)) (Proc.devRef .tc main_v0) = _
  after_results
  rfl

/-- Its second array is the transposed weight times the second matrix. -/
theorem matrixArray_eq (c : Dev nD) :
    V m c main_v2 = Host.dotGeneral dot_S100x100_S100x100_S100x100_1_0_0_1_n_n none
      (transpose S100x100 [1, 0] (inW m c) transposes_S100x100_S100x100_1_0) (inS m c) := by
  show StableHlo.after hostOps0 (fun b => m (c, b)) (Proc.devRef .tc main_v2) = _
  after_results

/-- Its third array is the bias, as a row, times the second matrix. -/
theorem biasArray_eq (c : Dev nD) :
    V m c main_v4 = Host.dotGeneral dot_S1x100_S100x100_S1x100_1_0_0_1_n_n none
      (shapeCast S1x100 (inB m c) shapeCasts_S100_S1x100 : FVec Ideal S1x100 .f32) (inS m c) := by
  show StableHlo.after hostOps0 (fun b => m (c, b)) (Proc.devRef .tc main_v4) = _
  after_results
  rfl

/-- The one operation after the region reshapes the region's output array. -/
theorem tail_eq (c : Dev nD) :
    Pipeline.afterTail₀ cfgs (dats m) 0 (V0 m) [hostOps1] c main_v6
      = shapeCast S4096x64x1x100 ((dats m 0 c).arrAt 3 cfg0.N) shapeCasts_S262144x100_S4096x64x1x100 := by
  unfold Pipeline.afterTail₀
  show StableHlo.after hostOps1 _ (Proc.devRef .tc main_v6) = _
  after_results
  have e := Pipeline.withArrays_arr spec0 launch0.win.arr_inj c (V0 m c) (fun w => (dats m 0 c).arrAt w cfg0.N) 3
  refine Eq.trans ?_ (congrArg (fun A => shapeCast S4096x64x1x100 A shapeCasts_S262144x100_S4096x64x1x100) e)
  rfl

/-- The program's result: the folded form of the two-layer map of the four inputs. -/
theorem result_eq (c : Dev nD) :
    Pipeline.afterTail₀ cfgs (dats m) 0 (V0 m) [hostOps1] c main_v6
      = folded (inX m c) (inW m c) (inB m c) (inS m c) := by
  rw [tail_eq, outputArray, rowsArray_eq, matrixArray_eq, biasArray_eq]
  funext i
  rw [eq_ix4 i]
  exact result_apply _ _ _ _ _ _ _ _

/-- The run, read: the result at the folded form, the four inputs unchanged. -/
theorem run : θ_run defs (onTc (τ := τ) (main (F := Ideal))) ⟨m, fun _ => 0, ρ⟩ fun r => ∀ c : Dev nD,
      r.2.mem ((c : Thread nD τ).loc main_v6)
        = folded (inX m c) (inW m c) (inB m c) (inS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.lean ====
/-
  A stream of 262144 rows of length 100 through two linear layers.

  The reference applies the first layer to every row, x ↦ x · Wᵀ + b, and then multiplies by the second matrix S:
      out[l, s, o, e] = Σ_k (Σ_d x[l, s, o, d] · W[k, d] + b[k]) · S[k, e].
  The kernel multiplies the two small matrices first, M = Wᵀ · S and c = b · S, on the host, and then makes ONE pass
  over the rows in 32 blocks of 8192, each block computing rows · M + c on the matrix unit:
      out[l, s, o, e] = Σ_d x[l, s, o, d] · (Σ_k W[k, d] · S[k, e]) + Σ_k b[k] · S[k, e].
  Over the reals the two are equal by distributing S over the first layer's sum and its bias and swapping the two
  sums.  On the extended reals that step needs every entry to be real, which is what the precondition (every input
  finite) gives; a change of float format is the identity there and a product into a zero accumulator is the plain sum.

  The modules: TwoLayerLaw (the two forms and the law), FiniteInputs (the precondition gives real entries),
  RefValue (the reference is the two-layer form), KernelPayload (one stored entry), KernelHost (the host operations
  around the region, entry by entry), KernelBlocks (from the 32 blocks to the output array), KernelRun (the kernel
  program's run with its result named).  The three frames are the programs' runs with the result dropped; nothing was
  rewritten between the kernel and its idealization.
-/
import proofs.«123369_j19963007991948_1_alg».proof.Defs
import proofs.«123369_j19963007991948_1_alg».proof.Proof.Gen.Kernel
import proofs.«123369_j19963007991948_1_alg».proof.Proof.Gen.Kernel.Frame
import proofs.«123369_j19963007991948_1_alg».proof.Proof.Gen.KernelIdeal
import proofs.«123369_j19963007991948_1_alg».proof.Proof.Gen.KernelIdeal.Frame
import proofs.«123369_j19963007991948_1_alg».proof.Proof.Gen.ReferenceIdeal
import proofs.«123369_j19963007991948_1_alg».proof.Proof.Gen.ReferenceIdeal.Run
import proofs.«123369_j19963007991948_1_alg».proof.Proof.Gen.ReferenceIdeal.Read
import proofs.«123369_j19963007991948_1_alg».proof.Proof.Gen.Pre_finite_inputs
import proofs.«123369_j19963007991948_1_alg».proof.Proof.TwoLayerLaw
import proofs.«123369_j19963007991948_1_alg».proof.Proof.FiniteInputs
import proofs.«123369_j19963007991948_1_alg».proof.Proof.RefValue
import proofs.«123369_j19963007991948_1_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs and leaves its inputs unchanged. -/
theorem frame_kernel : Cert.frame_Kernel := fun m ρ _ => Cert.Kernel.Gen.frame m ρ

/-- So does its reading at the exact instance. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten between the kernel and its idealization. -/
theorem preserves : Cert.preserves_Kernel_KernelIdeal := trivial

/-- Both programs end at the two-layer map of the inputs: the kernel's folded form equals it because the inputs are
    real (the law), and the reference is it entry by entry. -/
theorem algebraic : Cert.algebraic_KernelIdeal_ReferenceIdeal := by
  intro m ρ m' ρ' hpre hagree
  refine ⟨fun c => Cert.TwoLayer.twoLayer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Hand.run m ρ)
    obtain ⟨hx, hW, hb, hS⟩ := Cert.TwoLayer.real_of_pre _ _ _ _ (hpre c)
    exact Cert.TwoLayer.folded_eq_twoLayer _ _ _ _ hx hW hb hS
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.ReferenceIdeal.RefValue.ref_eq_twoLayer,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
